-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x14336 : Shape := ⟨2, ![4096, 14336]⟩
abbrev S14336x4096 : Shape := ⟨2, ![14336, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x14336 : S_.BroadcastsInDim S4096x14336 (![] : Fin 0 → Fin S4096x14336.rank)
  reducesTo_S4096x14336_S_d0_1 : S4096x14336.ReducesTo [0, 1] S_
  bcast_S_S14336x4096 : S_.BroadcastsInDim S14336x4096 (![] : Fin 0 → Fin S14336x4096.rank)
  reducesTo_S14336x4096_S_d0_1 : S14336x4096.ReducesTo [0, 1] S_

variable [Facts]

def fn_part1 {F : FTy → Type} [FloatOps F] (main_v13 : IVec S_ 1) (main_v16 : IVec S14336x4096 1) : IVec S_ 1 :=
  let main_c_5 : IVec S_ 1 := constantI S_ 1 1#1
  let main_v17 : IVec S_ 1 := (fun x v => Host.reduce IntOp.andi x v reducesTo_S14336x4096_S_d0_1 h_S_) main_v16 main_c_5
  let main_v18 : IVec S_ 1 := andi main_v13 main_v17
  main_v18

def fn {F : FTy → Type} [FloatOps F] (main_arg0 : FVec F S4096x4096 .f32) (main_arg1 : FVec F S4096x14336 .f32) (main_arg2 : FVec F S4096x14336 .f32) (main_arg3 : FVec F S14336x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x14336 .f32 := Host.absf main_arg1
  let main_cst_0 : FVec F S_ .f32 := constant S_ .f32 0x7F800000#32
  let main_v5 : FVec F S4096x14336 .f32 := broadcastInDim S4096x14336 ![] bcast_S_S4096x14336 main_cst_0
  let main_v6 : IVec S4096x14336 1 := cmpf .olt main_v4 main_v5
  let main_c_1 : IVec S_ 1 := constantI S_ 1 1#1
  let main_v7 : IVec S_ 1 := (fun x v => Host.reduce IntOp.andi x v reducesTo_S4096x14336_S_d0_1 h_S_) main_v6 main_c_1
  let main_v8 : IVec S_ 1 := andi main_v3 main_v7
  let main_v9 : FVec F S4096x14336 .f32 := Host.absf main_arg2
  let main_cst_2 : FVec F S_ .f32 := constant S_ .f32 0x7F800000#32
  let main_v10 : FVec F S4096x14336 .f32 := broadcastInDim S4096x14336 ![] bcast_S_S4096x14336 main_cst_2
  let main_v11 : IVec S4096x14336 1 := cmpf .olt main_v9 main_v10
  let main_c_3 : IVec S_ 1 := constantI S_ 1 1#1
  let main_v12 : IVec S_ 1 := (fun x v => Host.reduce IntOp.andi x v reducesTo_S4096x14336_S_d0_1 h_S_) main_v11 main_c_3
  let main_v13 : IVec S_ 1 := andi main_v8 main_v12
  let main_v14 : FVec F S14336x4096 .f32 := Host.absf main_arg3
  let main_cst_4 : FVec F S_ .f32 := constant S_ .f32 0x7F800000#32
  let main_v15 : FVec F S14336x4096 .f32 := broadcastInDim S14336x4096 ![] bcast_S_S14336x4096 main_cst_4
  let main_v16 : IVec S14336x4096 1 := cmpf .olt main_v14 main_v15
  fn_part1 (F := F) main_v13 main_v16
-- ==== Kernel.lean ====
abbrev S4096x4096 : Shape := ⟨2, ![4096, 4096]⟩
abbrev S4096x14336 : Shape := ⟨2, ![4096, 14336]⟩
abbrev S14336x4096 : Shape := ⟨2, ![14336, 4096]⟩
abbrev S256x4096 : Shape := ⟨2, ![256, 4096]⟩
abbrev S4096x512 : Shape := ⟨2, ![4096, 512]⟩
abbrev S512x4096 : Shape := ⟨2, ![512, 4096]⟩
abbrev S256x512 : Shape := ⟨2, ![256, 512]⟩

abbrev nBuf : Space → Nat
  | .hbm => 9
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x14336, .f32⟩
  | .hbm, ⟨2, _⟩ => ⟨S4096x14336, .f32⟩
  | .hbm, ⟨3, _⟩ => ⟨S14336x4096, .f32⟩
  | .hbm, ⟨4, _⟩ => ⟨S4096x4096, .bf16⟩
  | .hbm, ⟨5, _⟩ => ⟨S4096x14336, .bf16⟩
  | .hbm, ⟨6, _⟩ => ⟨S4096x14336, .bf16⟩
  | .hbm, ⟨7, _⟩ => ⟨S14336x4096, .bf16⟩
  | .hbm, ⟨8, _⟩ => ⟨S4096x4096, .f32⟩
  | .local _ .vmem, ⟨0, _⟩ => ⟨S256x4096, .bf16⟩
  | .local _ .vmem, ⟨1, _⟩ => ⟨S256x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S512x4096, .bf16⟩
  | .local _ .vmem, ⟨7, _⟩ => ⟨S512x4096, .bf16⟩
  | .local _ .vmem, ⟨8, _⟩ => ⟨S256x4096, .f32⟩
  | .local _ .vmem, ⟨9, _⟩ => ⟨S256x4096, .f32⟩
  | .local _ .vmem, ⟨10, _⟩ => ⟨S256x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 28], ![false, false]⟩

def k0_cond2 (i : grid0.Coords) : BitVec 1 :=
  let arg1 : BitVec 32 := BitVec.ofNat 32 (i 1).val
  let c27_i32 : BitVec 32 := 27#32
  let v23 : BitVec 1 := Scalar.cmpi .eq arg1 c27_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  dot_S256x4096_S4096x512_S256x512_1_0_0_1_n_n_wf : DotDims.WF S256x4096 S4096x512 S256x512 [1] [0] [0] [1] [] []
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .bf16 = 32 ∨ (Rect.block (s := S4096x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x14336.size a
  hwx0_1 : ∀ i : grid0.Coords, EltTy.bits .bf16 = 32 ∨ (Rect.block (s := S4096x14336) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x14336.size a
  hwx0_2 : ∀ i : grid0.Coords, EltTy.bits .bf16 = 32 ∨ (Rect.block (s := S4096x14336) S4096x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S14336x4096.size a
  hwx0_3 : ∀ i : grid0.Coords, EltTy.bits .bf16 = 32 ∨ (Rect.block (s := S14336x4096) S512x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .f32 = 32 ∨ (Rect.block (s := S4096x4096) S256x4096.size (cc0_transform_4 i) (hinb0_4 i)).WholeWords (EltTy.packing .f32)

variable [Facts₀]

def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x14336 : Shape := ⟨2, ![4096, 14336]⟩
abbrev S14336x4096 : Shape := ⟨2, ![14336, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x14336, .f32⟩
  | .hbm, ⟨2, _⟩ => ⟨S4096x14336, .f32⟩
  | .hbm, ⟨3, _⟩ => ⟨S14336x4096, .f32⟩
  | .hbm, ⟨4, _⟩ => ⟨S4096x14336, .f32⟩
  | .hbm, ⟨5, _⟩ => ⟨S4096x14336, .f32⟩
  | .hbm, ⟨6, _⟩ => ⟨S4096x14336, .f32⟩
  | .hbm, ⟨7, _⟩ => ⟨S_, .f32⟩
  | .hbm, ⟨8, _⟩ => ⟨S4096x14336, .f32⟩
  | .hbm, ⟨9, _⟩ => ⟨S4096x14336, .f32⟩
  | .hbm, ⟨10, _⟩ => ⟨S_, .f32⟩
  | .hbm, ⟨11, _⟩ => ⟨S4096x14336, .f32⟩
  | .hbm, ⟨12, _⟩ => ⟨S4096x14336, .f32⟩
  | .hbm, ⟨13, _⟩ => ⟨S4096x14336, .f32⟩
  | .hbm, ⟨14, _⟩ => ⟨S4096x14336, .f32⟩
  | .hbm, ⟨15, _⟩ => ⟨S4096x14336, .f32⟩
  | .hbm, ⟨16, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S4096x14336 : S_.BroadcastsInDim S4096x14336 (![] : Fin 0 → Fin S4096x14336.rank)
  dot_S4096x4096_S4096x14336_S4096x14336_1_0_0_1_n_n_wf : DotDims.WF S4096x4096 S4096x14336 S4096x14336 [1] [0] [0] [1] [] []
  dot_S4096x14336_S14336x4096_S4096x4096_1_0_0_1_n_n_wf : DotDims.WF S4096x14336 S14336x4096 S4096x4096 [1] [0] [0] [1] [] []

variable [Facts₀]

def dot_S4096x4096_S4096x14336_S4096x14336_1_0_0_1_n_n : DotDims S4096x4096 S4096x14336 S4096x14336 where
  lhsContracting := [1]
  rhsContracting := [0]
  lhsNonContracting := [0]
  rhsNonContracting := [1]
  lhsBatch := []
  rhsBatch := []
  wf := dot_S4096x4096_S4096x14336_S4096x14336_1_0_0_1_n_n_wf
def dot_S4096x14336_S14336x4096_S4096x4096_1_0_0_1_n_n : DotDims S4096x14336 S14336x4096 S4096x4096 where
  lhsContracting := [1]
  rhsContracting := [0]
  lhsNonContracting := [0]
  rhsNonContracting := [1]
  lhsBatch := []
  rhsBatch := []
  wf := dot_S4096x14336_S14336x4096_S4096x4096_1_0_0_1_n_n_wf

class Facts : Prop extends Facts₀ where

variable [Facts]
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.KernelPieces.lean ====
/-
  What one grid point of the kernel does to its accumulator.

  The kernel walks a 16 × 28 grid: point (i, k) sees rows 256·i … 256·i + 255 of the tokens and hidden coordinates
  512·k … 512·k + 511 of the three projections. At every point it adds to a [256, 4096] accumulator the product of the
  tile's gated hidden activations with the tile's rows of the down projection; at k = 0 the accumulator is first set to
  zero, and at k = 27 the accumulator is copied to the output block. So there are three kinds of point; in each, what
  the accumulator (and at k = 27 the output block) holds afterwards is ONE expression of the four input blocks and of
  what the accumulator held before — the same expression in all three, started from the zero block at k = 0.

  Read at entry (p, q), over the extended reals, that expression is
      acc(p, q) + Σ_j ((g(p, j) · σ(g(p, j))) · u(p, j)) · down(j, q),
  with g and u the products of the token block's row p with column j of the gate and up blocks: each of the three matrix
  products starts from the zero matrix, so it is a plain sum over its contraction coordinate, and narrowing the hidden
  block to a shorter float format changes nothing there.
-/
import proofs.«135498_j45887430590500_1_alg».proof.Proof.Gen.KernelIdeal.Value
import proofs.«135498_j45887430590500_1_alg».proof.Proof.LibPlainMatmul
import Idealize.ShloMosaic.Lib.Pipeline.Value
import Idealize.ShloMosaic.Lib.ValueIdx
import Idealize.ShloMosaic.Lib.Tactic

set_option maxRecDepth 16384

noncomputable section

open scoped BigOperators
open Idealize.ShloMosaic Idealize.ShloMosaic.TcCoe Idealize.ShloMosaic.ValueIdx Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A point with k = 0 (and k ≠ 27): the accumulator is set to the zero block, read back, and updated. -/
theorem acc_first (c : Dev nD) (i : grid0.Coords) (a2 : Memref sig .tc .vmem S256x4096 .bf16) (h2 : a2.IsWhole) (a3 : Memref sig .tc .vmem S4096x512 .bf16) (h3 : a3.IsWhole) (a4 : Memref sig .tc .vmem S4096x512 .bf16) (h4 : a4.IsWhole) (a5 : Memref sig .tc .vmem S512x4096 .bf16) (h5 : a5.IsWhole) (a6 : Memref sig .tc .vmem S256x4096 .f32) (h6 : a6.IsWhole) (a7 : Memref sig .tc .vmem S256x4096 .f32) (h7 : a7.IsWhole) (hc0 : cond0_0 i) (hc1 : ¬cond0_1 i) (x0 : Vec F S256x4096 .bf16) (x1 : Vec F S4096x512 .bf16) (x2 : Vec F S4096x512 .bf16) (x3 : Vec F S512x4096 .bf16) :
    sout0_A_0 c i a2 h2 a3 h3 a4 h4 a5 h5 a6 h6 a7 h7 hc0 hc1 x0 x1 x2 x3 = k0_pay2 x0 x1 x2 (k0_pay1 (F := F)) x3 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S256x4096) hz, View.readCov_unit_zero (S := S256x4096) _ hz]
  simp only [View.readAt_eq_ld, h2.read_unread, h3.read_unread, h4.read_unread, h5.read_unread, h7.read_unread,
    View.ld_unit_zero (S := S256x4096) hz, View.ld_unit_zero (S := S4096x512) hz, View.ld_unit_zero (S := S512x4096) hz,
    View.readCov_unit_zero (S := S256x4096) _ hz]

/-- A point with 0 < k < 27: the accumulator is updated over what the point before left in it. -/
theorem acc_middle (c : Dev nD) (i : grid0.Coords) (a2 : Memref sig .tc .vmem S256x4096 .bf16) (h2 : a2.IsWhole) (a3 : Memref sig .tc .vmem S4096x512 .bf16) (h3 : a3.IsWhole) (a4 : Memref sig .tc .vmem S4096x512 .bf16) (h4 : a4.IsWhole) (a5 : Memref sig .tc .vmem S512x4096 .bf16) (h5 : a5.IsWhole) (a6 : Memref sig .tc .vmem S256x4096 .f32) (h6 : a6.IsWhole) (a7 : Memref sig .tc .vmem S256x4096 .f32) (h7 : a7.IsWhole) (hc0 : ¬cond0_0 i) (hc1 : ¬cond0_1 i) (x0 : Vec F S256x4096 .bf16) (x1 : Vec F S4096x512 .bf16) (x2 : Vec F S4096x512 .bf16) (x3 : Vec F S512x4096 .bf16) (xs0 : Vec F S256x4096 .f32) :
    sout0_B_0 c i a2 h2 a3 h3 a4 h4 a5 h5 a6 h6 a7 h7 hc0 hc1 x0 x1 x2 x3 xs0 = k0_pay2 x0 x1 x2 xs0 x3 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  rw [View.canon_unit_zero hz]
  simp only [View.readAt_eq_ld, h2.read_unread, h3.read_unread, h4.read_unread, h5.read_unread, h7.read_unread,
    View.ld_unit_zero (S := S256x4096) hz, View.ld_unit_zero (S := S4096x512) hz, View.ld_unit_zero (S := S512x4096) hz,
    View.readCov_unit_zero (S := S256x4096) _ hz]

/-- A point with k = 27: the accumulator is updated over what the point before left in it, as at the middle points. -/
theorem acc_last (c : Dev nD) (i : grid0.Coords) (a2 : Memref sig .tc .vmem S256x4096 .bf16) (h2 : a2.IsWhole) (a3 : Memref sig .tc .vmem S4096x512 .bf16) (h3 : a3.IsWhole) (a4 : Memref sig .tc .vmem S4096x512 .bf16) (h4 : a4.IsWhole) (a5 : Memref sig .tc .vmem S512x4096 .bf16) (h5 : a5.IsWhole) (a6 : Memref sig .tc .vmem S256x4096 .f32) (h6 : a6.IsWhole) (a7 : Memref sig .tc .vmem S256x4096 .f32) (h7 : a7.IsWhole) (hc0 : ¬cond0_0 i) (hc1 : cond0_1 i) (x0 : Vec F S256x4096 .bf16) (x1 : Vec F S4096x512 .bf16) (x2 : Vec F S4096x512 .bf16) (x3 : Vec F S512x4096 .bf16) (xs0 : Vec F S256x4096 .f32) :
    sout0_C_0 c i a2 h2 a3 h3 a4 h4 a5 h5 a6 h6 a7 h7 hc0 hc1 x0 x1 x2 x3 xs0 = k0_pay2 x0 x1 x2 xs0 x3 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz]
  simp only [View.readAt_eq_ld, h2.read_unread, h3.read_unread, h4.read_unread, h5.read_unread, h7.read_unread,
    View.ld_unit_zero (S := S256x4096) hz, View.ld_unit_zero (S := S4096x512) hz, View.ld_unit_zero (S := S512x4096) hz,
    View.readCov_unit_zero (S := S256x4096) _ hz]

/-- A point with k = 27: the output block receives the updated accumulator, read back after its store. -/
theorem out_last (c : Dev nD) (i : grid0.Coords) (a2 : Memref sig .tc .vmem S256x4096 .bf16) (h2 : a2.IsWhole) (a3 : Memref sig .tc .vmem S4096x512 .bf16) (h3 : a3.IsWhole) (a4 : Memref sig .tc .vmem S4096x512 .bf16) (h4 : a4.IsWhole) (a5 : Memref sig .tc .vmem S512x4096 .bf16) (h5 : a5.IsWhole) (a6 : Memref sig .tc .vmem S256x4096 .f32) (h6 : a6.IsWhole) (a7 : Memref sig .tc .vmem S256x4096 .f32) (h7 : a7.IsWhole) (hc0 : ¬cond0_0 i) (hc1 : cond0_1 i) (x0 : Vec F S256x4096 .bf16) (x1 : Vec F S4096x512 .bf16) (x2 : Vec F S4096x512 .bf16) (x3 : Vec F S512x4096 .bf16) (xs0 : Vec F S256x4096 .f32) :
    out0_C_4 c i a2 h2 a3 h3 a4 h4 a5 h5 a6 h6 a7 h7 hc0 hc1 x0 x1 x2 x3 xs0 = k0_pay2 x0 x1 x2 xs0 x3 := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz]
  simp only [View.readAt_eq_ld, h2.read_unread, h3.read_unread, h4.read_unread, h5.read_unread, h7.read_unread,
    View.ld_unit_zero (S := S256x4096) hz, View.ld_unit_zero (S := S4096x512) hz, View.ld_unit_zero (S := S512x4096) hz,
    View.readCov_unit_zero (S := S256x4096) _ hz]

/-- The zero block is zero at every entry. -/
theorem zero_apply (y : S256x4096.Idx) : k0_pay1 (F := Ideal) y = 0 := by
  unfold k0_pay1
  simp only [shapeCast_self]
  exact Ideal.ofBits_zero_f32

theorem logistic_apply {s : Shape} {φ : FTy} (a : FVec Ideal s φ) (y : s.Idx) : logistic a y = Ideal.logistic (a y) := rfl

/-- The update at entry (p, q), over the extended reals. -/
theorem update_apply (x0 : S256x4096.Idx → EReal) (x1 x2 : S4096x512.Idx → EReal) (acc : S256x4096.Idx → EReal)
    (x3 : S512x4096.Idx → EReal) (p : Fin 256) (q : Fin 4096) :
    k0_pay2 (F := Ideal) x0 x1 x2 acc x3 (ix2 p q)
      = acc (ix2 p q) + ∑ j : Fin 512,
          (((∑ e : Fin 4096, x0 (ix2 p e) * x1 (ix2 e j)) * Ideal.logistic (∑ e : Fin 4096, x0 (ix2 p e) * x1 (ix2 e j)))
            * (∑ e : Fin 4096, x0 (ix2 p e) * x2 (ix2 e j))) * x3 (ix2 j q) := by
  unfold k0_pay2
  simp only [shapeCast_self]
  rw [addf_apply]
  refine congrArg (acc (ix2 p q) + ·) ?_
  refine (Cert.Lib.PlainMatmul.apply (φ₁ := .bf16) (φ₂ := .bf16) dot_S256x512_S512x4096_S256x4096_1_0_0_1_n_n rfl rfl rfl rfl rfl rfl none _ x3 p q).trans ?_
  refine Finset.sum_congr rfl fun j _ => ?_
  have hg : matmul (F := Ideal) (φ₁ := .bf16) (φ₂ := .bf16) dot_S256x4096_S4096x512_S256x512_1_0_0_1_n_n none x0 x1 (constant S256x512 .f32 0x00000000#32) (ix2 p j)
      = ∑ e : Fin 4096, x0 (ix2 p e) * x1 (ix2 e j) :=
    Cert.Lib.PlainMatmul.apply (φ₁ := .bf16) (φ₂ := .bf16) dot_S256x4096_S4096x512_S256x512_1_0_0_1_n_n rfl rfl rfl rfl rfl rfl none x0 x1 p j
  have hu : matmul (F := Ideal) (φ₁ := .bf16) (φ₂ := .bf16) dot_S256x4096_S4096x512_S256x512_1_0_0_1_n_n none x0 x2 (constant S256x512 .f32 0x00000000#32) (ix2 p j)
      = ∑ e : Fin 4096, x0 (ix2 p e) * x2 (ix2 e j) :=
    Cert.Lib.PlainMatmul.apply (φ₁ := .bf16) (φ₂ := .bf16) dot_S256x4096_S4096x512_S256x512_1_0_0_1_n_n rfl rfl rfl rfl rfl rfl none x0 x2 p j
  rw [truncf_apply, mulf_apply, mulf_apply, logistic_apply, hg, hu]

end Cert.KernelIdeal.Pieces

end
-- ==== Proof.KernelBlocks.lean ====
/-
  The kernel's input blocks as entries of the whole matrices.

  At grid point t = 28·i + k the token block is rows 256·i … of the tokens (all 4096 columns), the gate and up blocks are
  columns 512·k … of the two up projections (all 4096 rows), and the down block is rows 512·k … of the down projection
  (all 4096 columns): entry (a, b) of a block is the matrix's entry at the block's offset plus (a, b). The block indices
  i = t / 28 and k = t mod 28 are read off the printed index maps once, over all 448 points.

  The kernel's four windows look at narrowed copies of the arguments, made on the host before the call; over the
  extended reals narrowing a float format is the identity, so each window's matrix is its argument.
-/
import proofs.«135498_j45887430590500_1_alg».proof.Proof.Gen.KernelIdeal.Value
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.ShloMosaic.ValueIdx Idealize.SL.Sem

namespace Cert.KernelIdeal.Blocks

open Cert.KernelIdeal Cert.KernelIdeal.Gen

/-- The block indices of the five windows at every grid point. -/
theorem idx_tok : ∀ t : Fin cfg0.N, win0_0.index t 0 = t.val / 28 ∧ win0_0.index t 1 = 0 :=
  (by decide +kernel : ∀ t : Fin grid0.N, win0_0.index t 0 = t.val / 28 ∧ win0_0.index t 1 = 0)
theorem idx_gate : ∀ t : Fin cfg0.N, win0_1.index t 0 = 0 ∧ win0_1.index t 1 = t.val % 28 :=
  (by decide +kernel : ∀ t : Fin grid0.N, win0_1.index t 0 = 0 ∧ win0_1.index t 1 = t.val % 28)
theorem idx_up : ∀ t : Fin cfg0.N, win0_2.index t 0 = 0 ∧ win0_2.index t 1 = t.val % 28 :=
  (by decide +kernel : ∀ t : Fin grid0.N, win0_2.index t 0 = 0 ∧ win0_2.index t 1 = t.val % 28)
theorem idx_down : ∀ t : Fin cfg0.N, win0_3.index t 0 = t.val % 28 ∧ win0_3.index t 1 = 0 :=
  (by decide +kernel : ∀ t : Fin grid0.N, win0_3.index t 0 = t.val % 28 ∧ win0_3.index t 1 = 0)
theorem idx_out : ∀ t : Fin cfg0.N, win0_4.index t 0 = t.val / 28 ∧ win0_4.index t 1 = 0 :=
  (by decide +kernel : ∀ t : Fin grid0.N, win0_4.index t 0 = t.val / 28 ∧ win0_4.index t 1 = 0)

variable {F : FTy → Type} [FloatOps F]
variable (m : (ℓ : Loc nD τ sig) → Buf (Elt F) ℓ)

/-- The four input blocks at a point, at their literal shapes. -/
abbrev tokBlk (c : Dev nD) (t : Fin cfg0.N) : Vec F S256x4096 .bf16 := iblk m c 0 t
abbrev gateBlk (c : Dev nD) (t : Fin cfg0.N) : Vec F S4096x512 .bf16 := iblk m c 1 t
abbrev upBlk (c : Dev nD) (t : Fin cfg0.N) : Vec F S4096x512 .bf16 := iblk m c 2 t
abbrev downBlk (c : Dev nD) (t : Fin cfg0.N) : Vec F S512x4096 .bf16 := iblk m c 3 t

/-- Row a of the token block is row 256·(t / 28) + a of the tokens. -/
theorem tokBlk_apply (c : Dev nD) (t : Fin cfg0.N) (a : Fin 256) (b : Fin 4096) (r : Fin 4096) (hr : r.val = 256 * (t.val / 28) + a.val) :
    tokBlk m c t (ix2 a b) = V m c main_v0 (ix2 r b) := by
  unfold tokBlk iblk
  rw [View.read_apply]
  show V m c main_v0 _ = V m c main_v0 _
  congr 1
  funext d
  apply Fin.ext
  match d with
  | ⟨0, _⟩ => show win0_0.index t 0 * 256 + 1 * a.val = r.val; rw [(idx_tok t).1]; omega
  | ⟨1, _⟩ => show win0_0.index t 1 * 4096 + 1 * b.val = b.val; rw [(idx_tok t).2]; omega

/-- Column b of the gate block is column 512·(t mod 28) + b of the gate projection. -/
theorem gateBlk_apply (c : Dev nD) (t : Fin cfg0.N) (a : Fin 4096) (b : Fin 512) (f : Fin 14336) (hf : f.val = 512 * (t.val % 28) + b.val) :
    gateBlk m c t (ix2 a b) = V m c main_v1 (ix2 a f) := by
  unfold gateBlk iblk
  rw [View.read_apply]
  show V m c main_v1 _ = V m c main_v1 _
  congr 1
  funext d
  apply Fin.ext
  match d with
  | ⟨0, _⟩ => show win0_1.index t 0 * 4096 + 1 * a.val = a.val; rw [(idx_gate t).1]; omega
  | ⟨1, _⟩ => show win0_1.index t 1 * 512 + 1 * b.val = f.val; rw [(idx_gate t).2]; omega

/-- Column b of the up block is column 512·(t mod 28) + b of the up projection. -/
theorem upBlk_apply (c : Dev nD) (t : Fin cfg0.N) (a : Fin 4096) (b : Fin 512) (f : Fin 14336) (hf : f.val = 512 * (t.val % 28) + b.val) :
    upBlk m c t (ix2 a b) = V m c main_v2 (ix2 a f) := by
  unfold upBlk iblk
  rw [View.read_apply]
  show V m c main_v2 _ = V m c main_v2 _
  congr 1
  funext d
  apply Fin.ext
  match d with
  | ⟨0, _⟩ => show win0_2.index t 0 * 4096 + 1 * a.val = a.val; rw [(idx_up t).1]; omega
  | ⟨1, _⟩ => show win0_2.index t 1 * 512 + 1 * b.val = f.val; rw [(idx_up t).2]; omega

/-- Row a of the down block is row 512·(t mod 28) + a of the down projection. -/
theorem downBlk_apply (c : Dev nD) (t : Fin cfg0.N) (a : Fin 512) (b : Fin 4096) (f : Fin 14336) (hf : f.val = 512 * (t.val % 28) + a.val) :
    downBlk m c t (ix2 a b) = V m c main_v3 (ix2 f b) := by
  unfold downBlk iblk
  rw [View.read_apply]
  show V m c main_v3 _ = V m c main_v3 _
  congr 1
  funext d
  apply Fin.ext
  match d with
  | ⟨0, _⟩ => show win0_3.index t 0 * 512 + 1 * a.val = f.val; rw [(idx_down t).1]; omega
  | ⟨1, _⟩ => show win0_3.index t 1 * 4096 + 1 * b.val = b.val; rw [(idx_down t).2]; omega

end Cert.KernelIdeal.Blocks

/-! ## The windows' matrices are the arguments -/

namespace Cert.KernelIdeal.Blocks

open Cert.KernelIdeal Cert.KernelIdeal.Gen

variable (m : (ℓ : Loc nD τ sig) → Buf (Elt Ideal) ℓ)

theorem V_tok (c : Dev nD) : (V m c main_v0 : S4096x4096.Idx → EReal) = m ((c : Thread nD τ).loc main_arg0) := by
  dsimp only [V, hostOps0]; after_results; rfl
theorem V_gate (c : Dev nD) : (V m c main_v1 : S4096x14336.Idx → EReal) = m ((c : Thread nD τ).loc main_arg1) := by
  dsimp only [V, hostOps0]; after_results; rfl
theorem V_up (c : Dev nD) : (V m c main_v2 : S4096x14336.Idx → EReal) = m ((c : Thread nD τ).loc main_arg2) := by
  dsimp only [V, hostOps0]; after_results; rfl
theorem V_down (c : Dev nD) : (V m c main_v3 : S14336x4096.Idx → EReal) = m ((c : Thread nD τ).loc main_arg3) := by
  dsimp only [V, hostOps0]; after_results; rfl

end Cert.KernelIdeal.Blocks

end
-- ==== Proof.MlpSpec.lean ====
/-
  The gated feed-forward layer as ONE function of its four matrices, over the extended reals.

  With x a [4096, 4096] matrix of tokens, wg and wu two [4096, 14336] projections and wd a [14336, 4096] projection,
      g(t, f) = Σ_e x(t, e) · wg(e, f),      u(t, f) = Σ_e x(t, e) · wu(e, f),
      h(t, f) = (g(t, f) · σ(g(t, f))) · u(t, f)          with σ(z) = 1 / (1 + e^(−z)),
      out(t, d) = Σ_f h(t, f) · wd(f, d).
  The sum over the 14336 hidden coordinates f is also the sum, over 28 tiles of 512 consecutive coordinates, of each
  tile's own sum: addition of extended reals is commutative and associative, so the regrouping holds at the infinities
  too. A running sum that starts from zero and adds one tile at a time is, after all 28, the whole.
-/
import Idealize.ShloMosaic.PureOps.Ideal.Laws
import Idealize.ShloMosaic.Lib.ValueIdx
import Idealize.ShloMosaic.Lib.IdealHost

noncomputable section

open scoped BigOperators
open Idealize.ShloMosaic Idealize.ShloMosaic.ValueIdx

namespace Cert.GatedMlp

/-- The shape of the tokens and of the result, of the two up projections, and of the down projection. -/
abbrev ST : Shape := ⟨2, ![4096, 4096]⟩
abbrev SU : Shape := ⟨2, ![4096, 14336]⟩
abbrev SDn : Shape := ⟨2, ![14336, 4096]⟩

/-- One entry of a projection of the tokens: row t of x against column f of w. -/
def proj (x : ST.Idx → EReal) (w : SU.Idx → EReal) (t : Fin 4096) (f : Fin 14336) : EReal :=
  ∑ e : Fin 4096, x (ix2 t e) * w (ix2 e f)

/-- The gated hidden activation at (t, f): the gate projection times its logistic, times the up projection. -/
def hidden (x : ST.Idx → EReal) (wg wu : SU.Idx → EReal) (t : Fin 4096) (f : Fin 14336) : EReal :=
  (proj x wg t f * Ideal.logistic (proj x wg t f)) * proj x wu t f

/-- The layer: the hidden activations against the down projection. -/
def mlp (x : ST.Idx → EReal) (wg wu : SU.Idx → EReal) (wd : SDn.Idx → EReal) : ST.Idx → EReal :=
  fun i => ∑ f : Fin 14336, hidden x wg wu (i 0) f * wd (ix2 f (i 1))

/-- Hidden coordinate j of tile k. -/
def col (k : Fin 28) (j : Fin 512) : Fin 14336 :=
  ⟨512 * k.val + j.val, by have := k.isLt; have := j.isLt; omega⟩

/-- Token p of row block i. -/
def row (i : Fin 16) (p : Fin 256) : Fin 4096 :=
  ⟨256 * i.val + p.val, by have := i.isLt; have := p.isLt; omega⟩

/-- The hidden coordinates are the 28 tiles of 512, one after the other. -/
def tiles : Fin 28 × Fin 512 ≃ Fin 14336 := (finProdFinEquiv : Fin 28 × Fin 512 ≃ Fin (28 * 512))

theorem tiles_apply (k : Fin 28) (j : Fin 512) : tiles (k, j) = col k j :=
  Fin.ext (by show j.val + 512 * k.val = 512 * k.val + j.val; omega)

/-- A sum over the hidden coordinates, tile by tile. -/
theorem sum_tiles {M : Type} [AddCommMonoid M] (F : Fin 14336 → M) :
    ∑ k : Fin 28, ∑ j : Fin 512, F (col k j) = ∑ f : Fin 14336, F f := by
  rw [← Equiv.sum_comp tiles F, Fintype.sum_prod_type]
  simp only [tiles_apply]

/-- Tile k's share of out(t, d). -/
def tile (x : ST.Idx → EReal) (wg wu : SU.Idx → EReal) (wd : SDn.Idx → EReal) (t d : Fin 4096) (k : Fin 28) : EReal :=
  ∑ j : Fin 512, hidden x wg wu t (col k j) * wd (ix2 (col k j) d)

/-- The same, at any natural number: nothing beyond the last tile. -/
def tileN (x : ST.Idx → EReal) (wg wu : SU.Idx → EReal) (wd : SDn.Idx → EReal) (t d : Fin 4096) (k : ℕ) : EReal :=
  if h : k < 28 then tile x wg wu wd t d ⟨k, h⟩ else 0

theorem tileN_of_lt (x : ST.Idx → EReal) (wg wu : SU.Idx → EReal) (wd : SDn.Idx → EReal) (t d : Fin 4096) (k : ℕ)
    (h : k < 28) : tileN x wg wu wd t d k = tile x wg wu wd t d ⟨k, h⟩ := dif_pos h

/-- The running sum: zero, then the first n tiles' shares added in order. -/
def running (x : ST.Idx → EReal) (wg wu : SU.Idx → EReal) (wd : SDn.Idx → EReal) (t d : Fin 4096) (n : ℕ) : EReal :=
  0 + ∑ k ∈ Finset.range n, tileN x wg wu wd t d k

/-- After the first tile: zero plus that tile's share. -/
theorem running_one (x : ST.Idx → EReal) (wg wu : SU.Idx → EReal) (wd : SDn.Idx → EReal) (t d : Fin 4096) :
    running x wg wu wd t d 1 = 0 + tileN x wg wu wd t d 0 := by
  unfold running; rw [Finset.sum_range_one]

/-- One more tile: the running sum plus its share. -/
theorem running_succ (x : ST.Idx → EReal) (wg wu : SU.Idx → EReal) (wd : SDn.Idx → EReal) (t d : Fin 4096) (n : ℕ) :
    running x wg wu wd t d (n + 1) = running x wg wu wd t d n + tileN x wg wu wd t d n := by
  unfold running; rw [Finset.sum_range_succ, add_assoc]

/-- After all 28 tiles the running sum is the layer's entry. -/
theorem running_all (x : ST.Idx → EReal) (wg wu : SU.Idx → EReal) (wd : SDn.Idx → EReal) (t d : Fin 4096) :
    running x wg wu wd t d 28 = mlp x wg wu wd (ix2 t d) := by
  unfold running
  rw [zero_add, Finset.sum_range (fun k => tileN x wg wu wd t d k)]
  have e : ∀ k : Fin 28, tileN x wg wu wd t d k.val = tile x wg wu wd t d k := fun k => tileN_of_lt x wg wu wd t d k.val k.isLt
  simp only [e]
  unfold tile mlp
  exact sum_tiles fun f => hidden x wg wu t f * wd (ix2 f d)

end Cert.GatedMlp

end
-- ==== Proof.KernelValue.lean ====
/-
  What the kernel's result holds: the gated feed-forward layer of its four arguments.

  Grid point t = 28·i + k works on row block i and hidden tile k. Its accumulator entry (p, q) afterwards is the entry
  before plus tile k's share of out(256·i + p, q); at k = 0 "before" is zero. So after point t the accumulator entry
  (p, q) is the running sum of the shares of tiles 0 … k, by induction on the point; after k = 27 that is the layer's
  entry out(256·i + p, q), and that point copies the accumulator into output block i, the only points that write a
  block back. The 16 output blocks tile the result, so the result is the layer everywhere.
-/
import proofs.«135498_j45887430590500_1_alg».proof.Proof.KernelPieces
import proofs.«135498_j45887430590500_1_alg».proof.Proof.KernelBlocks
import proofs.«135498_j45887430590500_1_alg».proof.Proof.MlpSpec

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Result

open Cert.KernelIdeal Cert.KernelIdeal.Gen Cert.KernelIdeal.Pieces Cert.KernelIdeal.Blocks Cert.GatedMlp

variable (m : (ℓ : Loc nD τ sig) → Buf (Elt Ideal) ℓ) (ρ : Dev nD → PrngReg)

/-- The four arguments: the tokens and the gate, up and down projections. -/
abbrev X (c : Dev nD) : ST.Idx → EReal := m ((c : Thread nD τ).loc main_arg0)
abbrev Wg (c : Dev nD) : SU.Idx → EReal := m ((c : Thread nD τ).loc main_arg1)
abbrev Wu (c : Dev nD) : SU.Idx → EReal := m ((c : Thread nD τ).loc main_arg2)
abbrev Wd (c : Dev nD) : SDn.Idx → EReal := m ((c : Thread nD τ).loc main_arg3)

/-- The layer of the four arguments. -/
abbrev layer (c : Dev nD) : ST.Idx → EReal := mlp (X m c) (Wg m c) (Wu m c) (Wd m c)

/-- One point's update of an accumulator entry adds the point's tile's share of the layer's entry in the point's row
    block. -/
theorem update_tile (c : Dev nD) (t : Fin cfg0.N) (acc : S256x4096.Idx → EReal) (p : Fin 256) (q : Fin 4096)
    (r : Fin 4096) (hr : r.val = 256 * (t.val / 28) + p.val) :
    k0_pay2 (F := Ideal) (tokBlk m c t) (gateBlk m c t) (upBlk m c t) acc (downBlk m c t) (ix2 p q)
      = acc (ix2 p q) + tileN (X m c) (Wg m c) (Wu m c) (Wd m c) r q (t.val % 28) := by
  refine (update_apply (tokBlk m c t) (gateBlk m c t) (upBlk m c t) acc (downBlk m c t) p q).trans ?_
  refine congrArg (acc (ix2 p q) + ·) ?_
  rw [tileN_of_lt _ _ _ _ _ _ _ (Nat.mod_lt _ (by decide))]
  unfold tile Cert.GatedMlp.hidden proj
  refine Finset.sum_congr rfl fun j _ => ?_
  have hcol : (col ⟨t.val % 28, Nat.mod_lt _ (by decide)⟩ j).val = 512 * (t.val % 28) + j.val := rfl
  have hx : ∀ e : Fin 4096, tokBlk m c t (ix2 p e) = X m c (ix2 r e) := fun e =>
    (tokBlk_apply m c t p e r hr).trans (congrFun (V_tok m c) _)
  have hg : ∀ e : Fin 4096, gateBlk m c t (ix2 e j) = Wg m c (ix2 e (col ⟨t.val % 28, Nat.mod_lt _ (by decide)⟩ j)) := fun e =>
    (gateBlk_apply m c t e j _ hcol).trans (congrFun (V_gate m c) _)
  have hu : ∀ e : Fin 4096, upBlk m c t (ix2 e j) = Wu m c (ix2 e (col ⟨t.val % 28, Nat.mod_lt _ (by decide)⟩ j)) := fun e =>
    (upBlk_apply m c t e j _ hcol).trans (congrFun (V_up m c) _)
  have hd : downBlk m c t (ix2 j q) = Wd m c (ix2 (col ⟨t.val % 28, Nat.mod_lt _ (by decide)⟩ j) q) :=
    (downBlk_apply m c t j q _ hcol).trans (congrFun (V_down m c) _)
  simp only [hx, hg, hu, hd]

/-- After a point with k = 0: the update of the zero block. -/
theorem after_first (c : Dev nD) (t : Fin cfg0.N) (h0 : t.val % 28 = 0) (h1 : ¬t.val % 28 = 27) :
    (outsAt0 m c t.val t.isLt).2
      = k0_pay2 (F := Ideal) (tokBlk m c t) (gateBlk m c t) (upBlk m c t) (k0_pay1 (F := Ideal)) (downBlk m c t) := by
  rw [outsAt0_A m c t h0 h1]
  dsimp only
  exact acc_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- After a point with 0 < k < 27: the update of what the point before left. -/
theorem after_middle (c : Dev nD) (t : Fin cfg0.N) (h0 : ¬t.val % 28 = 0) (h1 : ¬t.val % 28 = 27) :
    (outsAt0 m c t.val t.isLt).2
      = k0_pay2 (F := Ideal) (tokBlk m c t) (gateBlk m c t) (upBlk m c t) (outsAt0 m c (t.val - 1) (Nat.lt_of_le_of_lt (Nat.sub_le _ _) t.isLt)).2 (downBlk m c t) := by
  rw [outsAt0_B m c t h0 h1]
  dsimp only
  exact acc_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- After a point with k = 27: the same update, -/
theorem after_last (c : Dev nD) (t : Fin cfg0.N) (h0 : ¬t.val % 28 = 0) (h1 : t.val % 28 = 27) :
    (outsAt0 m c t.val t.isLt).2
      = k0_pay2 (F := Ideal) (tokBlk m c t) (gateBlk m c t) (upBlk m c t) (outsAt0 m c (t.val - 1) (Nat.lt_of_le_of_lt (Nat.sub_le _ _) t.isLt)).2 (downBlk m c t) := by
  rw [outsAt0_C m c t h0 h1]
  dsimp only
  exact acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-- After a point with k = 27 the output block holds what the accumulator holds. -/
theorem out_is_acc (c : Dev nD) (t : Fin cfg0.N) (h0 : ¬t.val % 28 = 0) (h1 : t.val % 28 = 27) :
    (outsAt0 m c t.val t.isLt).1 = (outsAt0 m c t.val t.isLt).2 := by
  rw [outsAt0_C m c t h0 h1]
  dsimp only
  exact (out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).trans
    (acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).symm

/-- THE ACCUMULATOR after point n = 28·i + k, at entry (p, q): the running sum of tiles 0 … k's shares of the layer's
    entry (256·i + p, q). By induction on the point. -/
theorem acc_after (c : Dev nD) : ∀ (n : ℕ) (h : n < cfg0.N) (p : Fin 256) (q : Fin 4096) (r : Fin 4096),
    r.val = 256 * (n / 28) + p.val →
    (outsAt0 m c n h).2 (ix2 p q) = running (X m c) (Wg m c) (Wu m c) (Wd m c) r q (n % 28 + 1) := by
  intro n
  induction n with
  | zero =>
    intro h p q r hr
    refine (congrFun (after_first m c ⟨0, h⟩ (Nat.zero_mod 28) (by show ¬(0 : ℕ) % 28 = 27; omega)) (ix2 p q)).trans ?_
    refine (update_tile m c ⟨0, h⟩ _ p q r hr).trans ?_
    rw [Pieces.zero_apply]
    show 0 + tileN (X m c) (Wg m c) (Wu m c) (Wd m c) r q (0 % 28) = running (X m c) (Wg m c) (Wu m c) (Wd m c) r q (0 % 28 + 1)
    rw [Nat.zero_mod, running_one]
  | succ n ih =>
    intro h p q r hr
    by_cases h0 : (n + 1) % 28 = 0
    · have h1 : ¬(n + 1) % 28 = 27 := by omega
      refine (congrFun (after_first m c ⟨n + 1, h⟩ h0 h1) (ix2 p q)).trans ?_
      refine (update_tile m c ⟨n + 1, h⟩ _ p q r hr).trans ?_
      rw [Pieces.zero_apply]
      show 0 + tileN (X m c) (Wg m c) (Wu m c) (Wd m c) r q ((n + 1) % 28) = running (X m c) (Wg m c) (Wu m c) (Wd m c) r q ((n + 1) % 28 + 1)
      rw [h0, running_one]
    · have hr' : r.val = 256 * (n / 28) + p.val := by omega
      have hk : (n + 1) % 28 = n % 28 + 1 := by omega
      have step : (outsAt0 m c (n + 1) h).2 (ix2 p q)
          = (outsAt0 m c n (Nat.lt_of_succ_lt h)).2 (ix2 p q) + tileN (X m c) (Wg m c) (Wu m c) (Wd m c) r q ((n + 1) % 28) := by
        by_cases h1 : (n + 1) % 28 = 27
        · refine (congrFun (after_last m c ⟨n + 1, h⟩ h0 h1) (ix2 p q)).trans ?_
          exact update_tile m c ⟨n + 1, h⟩ _ p q r hr
        · refine (congrFun (after_middle m c ⟨n + 1, h⟩ h0 h1) (ix2 p q)).trans ?_
          exact update_tile m c ⟨n + 1, h⟩ _ p q r hr
      rw [step, ih (Nat.lt_of_succ_lt h) p q r hr', hk]
      exact (running_succ (X m c) (Wg m c) (Wu m c) (Wd m c) r q (n % 28 + 1)).symm

/-- The index of the result that entry (p, q) of output block t / 28 is. -/
def outRow (t : Fin cfg0.N) (p : Fin 256) : Fin 4096 :=
  ⟨256 * (t.val / 28) + p.val, by
    have h := lt_of_lt_of_eq t.isLt (show cfg0.N = 448 from N_0); have := p.isLt; omega⟩

/-- WHAT A POINT WITH k = 27 WRITES BACK is its block of the layer. -/
theorem flushed_eq (c : Dev nD) (t : Fin cfg0.N) (hf : (cfg0.win 4).flush t = true) :
    (dats m 0 c).flushed 4 t = ((cfg0.win 4).blk t).view.read (Elt Ideal) (layer m c) := by
  have h1 : t.val % 28 = 27 := (flush0_4 t).mp hf
  have h0 : ¬t.val % 28 = 0 := by omega
  have key : ∀ y : S256x4096.Idx, (outsAt0 m c t.val t.isLt).1 y = layer m c (((cfg0.win 4).blk t).view.emb y) := by
    intro y
    obtain ⟨p, q, rfl⟩ : ∃ (p : Fin 256) (q : Fin 4096), y = ix2 p q := ⟨y 0, y 1, eq_ix2 y⟩
    rw [out_is_acc m c t h0 h1, acc_after m c t.val t.isLt p q (outRow t p) rfl, h1]
    refine (running_all (X m c) (Wg m c) (Wu m c) (Wd m c) (outRow t p) q).trans ?_
    show layer m c (ix2 (outRow t p) q) = _
    congr 1
    funext a
    apply Fin.ext
    match a with
    | ⟨0, _⟩ => show 256 * (t.val / 28) + p.val = win0_4.index t 0 * 256 + 1 * p.val; rw [(idx_out t).1]; omega
    | ⟨1, _⟩ => show q.val = win0_4.index t 1 * 4096 + 1 * q.val; rw [(idx_out t).2]; omega
  rw [Cert.KernelIdeal.Value.flushed4]
  exact funext key

/-- An index of the result is in point t's output block iff each coordinate is in the block's range on its axis. -/
theorem mem_blk (t : Fin cfg0.N) (i : S4096x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v4).slice (win0_4.rect t)).set ↔ _
  rw [View.set_slice_whole, Rect.mem_set_unit]
  exact Iff.rfl

/-- Every index of the result is in the block some point with k = 27 writes back: row r is in row block r / 256. -/
theorem covered (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  have hN : cfg0.N = 448 := N_0
  have ht : 28 * ((i 0).val / 256) + 27 < cfg0.N := by rw [hN]; omega
  refine ⟨⟨28 * ((i 0).val / 256) + 27, ht⟩, (flush0_4 _).mpr (by show (28 * ((i 0).val / 256) + 27) % 28 = 27; omega), ?_⟩
  rw [mem_blk]
  intro a
  match a with
  | ⟨0, _⟩ =>
    show win0_4.index ⟨28 * ((i 0).val / 256) + 27, ht⟩ 0 * 256 ≤ (i 0).val ∧ (i 0).val < win0_4.index ⟨28 * ((i 0).val / 256) + 27, ht⟩ 0 * 256 + 256
    rw [(idx_out ⟨28 * ((i 0).val / 256) + 27, ht⟩).1]
    show (28 * ((i 0).val / 256) + 27) / 28 * 256 ≤ (i 0).val ∧ (i 0).val < (28 * ((i 0).val / 256) + 27) / 28 * 256 + 256
    omega
  | ⟨1, _⟩ =>
    show win0_4.index ⟨28 * ((i 0).val / 256) + 27, ht⟩ 1 * 4096 ≤ (i 1).val ∧ (i 1).val < win0_4.index ⟨28 * ((i 0).val / 256) + 27, ht⟩ 1 * 4096 + 4096
    rw [(idx_out ⟨28 * ((i 0).val / 256) + 27, ht⟩).2]
    omega

/-- THE RESULT after the run is the layer. -/
theorem final (c : Dev nD) : (dats m 0 c).arrAt 4 cfg0.N = layer m c :=
  (dats m 0 c).arrAt_eq_of_cover 4 (layer m c) (flushed_eq m c) covered

/-- The run, read: the result at the layer of the arguments, the arguments unchanged. -/
theorem run : θ_run defs (onTc (τ := τ) (main (F := Ideal))) ⟨m, fun _ => 0, ρ⟩ fun r => ∀ c : Dev nD,
      r.2.mem ((c : Thread nD τ).loc main_v4) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Result

end
-- ==== Proof.RefIsMlp.lean ====
/-
  The reference computes the gated feed-forward layer: its last matrix product, read at an entry (t, d), is the sum over
  the hidden coordinate f of (g · (1 / (1 + e^(−g)))) · u against the down projection, with g and u the two projections of
  row t — and 1 / (1 + e^(−g)) over the extended reals is the logistic function by its definition, so this is the layer's
  own entry.
-/
import proofs.«135498_j45887430590500_1_alg».proof.Proof.Gen.ReferenceIdeal.Read
import proofs.«135498_j45887430590500_1_alg».proof.Proof.MlpSpec
import Idealize.ShloMosaic.Lib.IdealHost

noncomputable section

open scoped BigOperators
open Idealize.ShloMosaic Idealize.ShloMosaic.ValueIdx

namespace Cert.ReferenceIdeal.RefValue

open Cert.ReferenceIdeal Cert.ReferenceIdeal.Read Cert.GatedMlp

/-- The contracted indices of the two up projections at entry (t, f): row t of the tokens, column f of the weights. -/
theorem lidx_up (t : Fin 4096) (f : Fin 14336) (k : Fin 4096) : lidx_main_v0 (ix2 t f) k = ix2 t k :=
  funext fun a => Fin.ext (by match a with | ⟨0, _⟩ => rfl | ⟨1, _⟩ => rfl)
theorem ridx_up (t : Fin 4096) (f : Fin 14336) (k : Fin 4096) : ridx_main_v0 (ix2 t f) k = ix2 k f :=
  funext fun a => Fin.ext (by match a with | ⟨0, _⟩ => rfl | ⟨1, _⟩ => rfl)
theorem lidx_up' (t : Fin 4096) (f : Fin 14336) (k : Fin 4096) : lidx_main_v2 (ix2 t f) k = ix2 t k :=
  funext fun a => Fin.ext (by match a with | ⟨0, _⟩ => rfl | ⟨1, _⟩ => rfl)
theorem ridx_up' (t : Fin 4096) (f : Fin 14336) (k : Fin 4096) : ridx_main_v2 (ix2 t f) k = ix2 k f :=
  funext fun a => Fin.ext (by match a with | ⟨0, _⟩ => rfl | ⟨1, _⟩ => rfl)
/-- The contracted indices of the down projection at entry (t, d). -/
theorem lidx_down (t d : Fin 4096) (f : Fin 14336) : lidx_main_v4 (ix2 t d) f = ix2 t f :=
  funext fun a => Fin.ext (by match a with | ⟨0, _⟩ => rfl | ⟨1, _⟩ => rfl)
theorem ridx_down (t d : Fin 4096) (f : Fin 14336) : ridx_main_v4 (ix2 t d) f = ix2 f d :=
  funext fun a => Fin.ext (by match a with | ⟨0, _⟩ => rfl | ⟨1, _⟩ => rfl)

/-- The gate projection's entry. -/
theorem gate_eq (x : ST.Idx → EReal) (wg : SU.Idx → EReal) (t : Fin 4096) (f : Fin 14336) :
    val_main_v0 (F := Ideal) x wg (ix2 t f) = proj x wg t f := by
  rw [val_main_v0_apply]
  simp only [lidx_up, ridx_up]
  rfl

/-- The up projection's entry. -/
theorem up_eq (x : ST.Idx → EReal) (wu : SU.Idx → EReal) (t : Fin 4096) (f : Fin 14336) :
    val_main_v2 (F := Ideal) x wu (ix2 t f) = proj x wu t f := by
  rw [val_main_v2_apply]
  simp only [lidx_up', ridx_up']
  rfl

/-- The hidden activation's entry: the reference spells the logistic function as 1 / (1 + e^(−g)), with both ones the
    float pattern of one. -/
theorem hidden_eq (x : ST.Idx → EReal) (wg wu : SU.Idx → EReal) (t : Fin 4096) (f : Fin 14336) :
    val_main_v3 (F := Ideal) x wg wu (ix2 t f) = hidden x wg wu t f := by
  rw [val_main_v3_apply, val_main_v1_apply, val_main_call0_v5_apply, val_main_call0_v4_apply, val_main_call0_cst_0_apply,
    val_main_call0_v3_apply, val_main_call0_v2_apply, val_main_call0_cst_apply, val_main_call0_v1_apply,
    val_main_call0_v0_apply, gate_eq, up_eq]
  simp only [Ideal.ofBits_def, Ideal.ofBits_one_f32]
  rfl

/-- The reference's result is the layer. -/
theorem result_eq (x : ST.Idx → EReal) (wg wu : SU.Idx → EReal) (wd : SDn.Idx → EReal) :
    val_main_v4 (F := Ideal) x wg wu wd = mlp x wg wu wd := by
  funext i
  obtain ⟨t, d, rfl⟩ : ∃ (t : Fin 4096) (d : Fin 4096), i = ix2 t d := ⟨i 0, i 1, eq_ix2 i⟩
  rw [val_main_v4_apply]
  unfold mlp
  refine Finset.sum_congr rfl fun f _ => ?_
  rw [lidx_down, ridx_down, hidden_eq]

end Cert.ReferenceIdeal.RefValue

end
-- ==== Proof.lean ====
/- A gated feed-forward layer, fused into one kernel, against its plain reference — equal over the extended reals.

   Both programs take tokens x [4096, 4096], a gate and an up projection [4096, 14336] and a down projection
   [14336, 4096], and return  out(t, d) = Σ_f ((g · σ(g)) · u)(t, f) · down(f, d),  where g = x · gate, u = x · up and
   σ(z) = 1 / (1 + e^(−z)).
   The reference computes it with three whole matrix products and spells σ out as 1 / (1 + e^(−g)); the kernel walks 16
   row blocks of 256 tokens and, inside each, 28 tiles of 512 hidden coordinates, adding each tile's share of the row
   block's output into an accumulator that starts from zero, and writes the accumulator out after the last tile. Over
   the extended reals a change of float format is the identity, a matrix product into a zero matrix is a plain sum
   over its contraction coordinate, the logistic function IS 1 / (1 + e^(−z)), and addition is commutative and
   associative at the infinities too: so the 28 tiles' shares, added in order from zero, are the sum over all 14336
   hidden coordinates, and the two programs return the same matrix. No finiteness of the inputs is used.

   Proof/MlpSpec.lean states the layer and the regrouping of its sum; Proof/RefIsMlp.lean reads the reference's result
   as the layer; Proof/KernelPieces.lean reads one grid point's update at an entry, Proof/KernelBlocks.lean the input
   blocks as entries of the whole matrices, Proof/KernelValue.lean the accumulator after every point (by induction on
   the point) and with it the kernel's result; Proof/LibPlainMatmul.lean is the plain matrix product at an entry.
   The three runs (termination, no fault, arguments unchanged) are the generated frames and the generated run of the
   reference; the idealization rewrote nothing, so it is preserved trivially. -/
import proofs.«135498_j45887430590500_1_alg».proof.Defs
import proofs.«135498_j45887430590500_1_alg».proof.Proof.Gen.Kernel
import proofs.«135498_j45887430590500_1_alg».proof.Proof.Gen.Kernel.Skeleton
import proofs.«135498_j45887430590500_1_alg».proof.Proof.Gen.Kernel.Launch
import proofs.«135498_j45887430590500_1_alg».proof.Proof.Gen.Kernel.Points
import proofs.«135498_j45887430590500_1_alg».proof.Proof.Gen.Kernel.Frame
import proofs.«135498_j45887430590500_1_alg».proof.Proof.Gen.KernelIdeal
import proofs.«135498_j45887430590500_1_alg».proof.Proof.Gen.KernelIdeal.Skeleton
import proofs.«135498_j45887430590500_1_alg».proof.Proof.Gen.KernelIdeal.Launch
import proofs.«135498_j45887430590500_1_alg».proof.Proof.Gen.KernelIdeal.Points
import proofs.«135498_j45887430590500_1_alg».proof.Proof.Gen.KernelIdeal.Frame
import proofs.«135498_j45887430590500_1_alg».proof.Proof.Gen.ReferenceIdeal
import proofs.«135498_j45887430590500_1_alg».proof.Proof.Gen.KernelIdeal.Value
import proofs.«135498_j45887430590500_1_alg».proof.Proof.Gen.ReferenceIdeal.Run
import proofs.«135498_j45887430590500_1_alg».proof.Proof.Gen.ReferenceIdeal.Read
import proofs.«135498_j45887430590500_1_alg».proof.Proof.Gen.Pre_finite_inputs
import proofs.«135498_j45887430590500_1_alg».proof.Proof.KernelValue
import proofs.«135498_j45887430590500_1_alg».proof.Proof.RefIsMlp
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- From memories that agree on the four arguments both programs end with the layer of those arguments as result:
    the kernel by the accumulator's running sum, the reference by reading its three products at an entry. -/
theorem algebraic : Cert.algebraic_KernelIdeal_ReferenceIdeal := by
  intro m ρ m' ρ' _ hagree
  refine ⟨fun c => Cert.KernelIdeal.Result.layer m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
